-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096x4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S256x4096 : Shape := ⟨2, ![256, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 10
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S8192x4096, .f32⟩
  | .hbm, ⟨5, _⟩ => ⟨S8192x4096, .bf16⟩
  | .hbm, ⟨6, _⟩ => ⟨S4096x4096, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Kernel.MaskMul.lean ====
import proofs.«155387_j72567767433792_2_alg».proof.Proof.Gen.Kernel.Launch
import proofs.«155387_j72567767433792_2_alg».proof.Proof.Gen.Kernel.Skeleton
import proofs.«155387_j72567767433792_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # Region 0: the elementwise product of the weight and the mask, rounded to bf16, block row by block row -/

/-- Window `w`'s block at grid point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight's block at every point, for any proof data whose
    array is the entry contents and whose body leaves the block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's staging buffer holds the mask's block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole [256, 4096] block. -/
abbrev r0_0 : Rect S256x4096 := Rect.unit (s := S256x4096) ![0, 0] S256x4096.size inb_S256x4096_S256x4096_0_0

/-- The output block after the body, from the weight block `x0` and the mask block `x1`: the single store,
    of the rounded product of the two blocks as read over the whole rectangle. -/
def out0_2 (x0 x1 : Vec F S256x4096 .f32) : Vec F S256x4096 .bf16 :=
  View.canon [⟨r0_0, k0_pay1 (View.ld x0 r0_0) (View.ld x1 r0_0)⟩]

/-- The single store's rectangle is the whole block, so every index of the block lies in it. -/
theorem cover0_2 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging memrefs: with the two inputs at contents `x0`, `x1` and the output at anything,
    it runs to the continuation with the inputs unchanged and the output at `out0_2 x0 x1`. The output's
    old contents are read once (the value is unused) and then overwritten. -/
theorem sound_kernel0 (c : Dev nD) (E : Set ℕ) (i : grid0.Coords)
    (arg1 : Memref sig .tc .vmem S256x4096 .f32) (harg1 : arg1.IsWhole)
    (arg2 : Memref sig .tc .vmem S256x4096 .f32) (harg2 : arg2.IsWhole)
    (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__mask_mul_kernel i arg1 harg1 arg2 harg2 arg3 harg3) K := by
  simp only [cc0__mask_mul_kernel_eq_skeleton]; unfold cc0__mask_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as entered; after the body at point `t` the weight
    and mask buffers at their blocks and the output buffer at the rounded product of the two blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.Matmul.lean ====
import proofs.«155387_j72567767433792_2_alg».proof.Proof.Gen.Kernel.Launch
import proofs.«155387_j72567767433792_2_alg».proof.Proof.Gen.Kernel.Skeleton
import proofs.«155387_j72567767433792_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data window's current staging buffer holds its block at every point: the blocks tile the array, the
    body leaves the block in place, and an unfetched point has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of the bias window, which is fetched only where its block index moves (every eighth point):
    in between the buffer still holds the block, which is the current point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the 128 grid points -/

/-- "This is the first K-chunk" (the innermost grid coordinate is 0): the accumulator is reset. -/
abbrev cond1_0 (i : grid1.Coords) : Prop := (Scalar.cmpi .ne (Scalar.extui (Scalar.cmpi .eq (BitVec.ofNat 32 (i 2).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last K-chunk" (the innermost grid coordinate is 7): the accumulator plus bias is stored. -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first chunk the output block is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a middle chunk likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last chunk the output block is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x2048 .f32 := (Memref.whole cc1_stg3_0 : Memref sig .tc .vmem S1024x2048 .f32).view
/-- Each window's current staging memref at point `t`, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x2048 .f32 := Memref.whole cc1_scratch0
/-- The accumulator as a view: what it holds is stated through it. -/
abbrev VS1_0 : View sig .tc .vmem S1024x2048 .f32 := scM1_0.view

/-- The scoped buffers this kernel never touches (the other kernel's six staging buffers), each at some contents. -/
def restO (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's entry invariant: the untouched scoped buffers, the accumulator owned at some contents, and
    the generator register at some state. -/
theorem PhiA1_eq (c : Dev nD) :
    (Pipeline.ΦA spec1 c : sProp 𝕄)
      = iprop(restO (F := F) c ∗ (∃ d, owns (c : Thread nD τ) scM1_0 fullShare d) ∗ (∃ r, prngReg c r)) := by
  unfold Pipeline.ΦA; rw [scopedRest1_eq]; simp only [scM1_0, owns_whole]; unfold restO
  refine BI.equiv_iff.mp ⟨?_, ?_⟩
  · show (_ : sProp 𝕄) ⊢ _
    iintro ⟨⟨R1, R2, R3, R4, R5, R6, HS⟩, Hg⟩
    isplitl [R1 R2 R3 R4 R5 R6]
    · isplitl [R1]; · iexact R1
      isplitl [R2]; · iexact R2
      isplitl [R3]; · iexact R3
      isplitl [R4]; · iexact R4
      isplitl [R5]; · iexact R5
      iexact R6
    isplitl [HS]; · iexact HS
    iexact Hg
  · show (_ : sProp 𝕄) ⊢ _
    iintro ⟨⟨R1, R2, R3, R4, R5, R6⟩, HS, Hg⟩
    isplitl [R1 R2 R3 R4 R5 R6 HS]
    · isplitl [R1]; · iexact R1
      isplitl [R2]; · iexact R2
      isplitl [R3]; · iexact R3
      isplitl [R4]; · iexact R4
      isplitl [R5]; · iexact R5
      isplitl [R6]; · iexact R6
      iexact HS
    iexact Hg

/-! ## The kernel body on any whole memrefs, case by case

Three cases of the two conditions: A = first chunk (reset the accumulator, then accumulate; the output idle),
B = middle chunk (accumulate; the output idle), C = last chunk (accumulate, then store accumulator plus bias
into the output). Each run is stated with the inputs owned at their contents and handed back unchanged, and
names, as lists of written pieces (last write first), what the stores leave in the accumulator and in the output. -/

set_option maxHeartbeats 1000000 in
/-- Case A: the accumulator is taken at anything (it is overwritten by zeros before it is read for the sum),
    the idle output is handed back as found. -/
noncomputable def kernelRun1_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B: the accumulator is owned at what the point before left (`xs0`); the idle output is handed back as found. -/
noncomputable def kernelRun1_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C: the accumulator is owned at what the point before left (`xs0`); the output is taken at anything and
    left with its written pieces. -/
noncomputable def kernelRun1_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves in the output buffer and in the accumulator -/

/-- Case A stores nothing into the output: a placeholder that nothing consults (the window is idle there). -/
def out1_A_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What case A leaves in the accumulator: its written pieces read back. -/
def sout1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into the output: a placeholder that nothing consults. -/
def out1_B_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's store into the accumulator covers it. -/
theorem scover1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What case B leaves in the accumulator. -/
def sout1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's store into the output covers its block. -/
theorem cover1_C_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What case C leaves in the output's staging buffer: accumulator plus bias. -/
def out1_C_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's store into the accumulator covers it. -/
theorem scover1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What case C leaves in the accumulator. -/
def sout1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## The accumulation, point by point -/

/-- What the output's staging buffer (first component) and the accumulator (second component) hold after the
    body at position `n`: the case the position's residue mod 8 selects, run on the point's blocks, the
    accumulator of cases B and C taken at what position `n - 1` left. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first chunk. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle chunk: over what the point before left in the accumulator. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last chunk: over what the point before left in the accumulator. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the entry invariant (accumulator at anything);
    afterwards the untouched scoped buffers, the accumulator at what position `n - 1` left, the generator register. -/
def PhiS1 (c : Dev nD) : (n : ℕ) → n ≤ cfg1.N → sProp 𝕄
  | 0, _ => Pipeline.ΦA spec1 c
  | n + 1, hn => iprop(restO (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restO (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(restO (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of the pipeline on core `c`: the arrays as the region finds them; after the body each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · -- a first chunk: the accumulator is reset, so whatever it held is enough
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · -- a last chunk: accumulate over what the point before left, then store accumulator plus bias into the output
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a middle chunk: accumulate over what the point before left
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, Hg⟩
  isplitl [HR]; · iexact HR
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Frame

end
-- ==== Proof.Kernel.Run.lean ====
/-
  The whole run of the program, at any float interpretation: the host stretch (flatten the data and round it),
  region 0 (the masked weight), the host stretch (the bias as a row), region 1 (the tiled product with the
  bias added), the host stretch (un-flatten), threaded through the buffers' contents at each boundary; every
  weakly fair execution terminates and ends with every unscoped buffer at the last boundary's contents.
-/
import proofs.«155387_j72567767433792_2_alg».proof.Proof.Kernel.MaskMul
import proofs.«155387_j72567767433792_2_alg».proof.Proof.Kernel.Matmul
import proofs.«155387_j72567767433792_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => m (c, b)
/-- After the first host stretch (the data flattened to [8192, 4096] and rounded): region 0's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At region 0's exit: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the bias as a [1, 4096] row): region 1's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit: its arrays at what its write-backs leave, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the last host stretch (the result un-flattened to [4, 2048, 4096]): what the program returns with. -/
abbrev W5 : Dev nD → Valuation τ sig (Elt F) := fun c => StableHlo.after hostOps2 (W4 m c)

/-! ## What each boundary keeps of the one before -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
/-- An input window's array leaves region 1 as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))

/-- The data argument reaches the end as launched: no stretch writes it and no region stages it. -/
theorem W5_main_arg0 (c : Dev nD) : W5 m c main_arg0 = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
/-- The weight argument: region 0 reads it through an input window. -/
theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <|
    (W2_in m c 0 rfl).trans <| (W1_of m c main_arg1 (by decide)).trans rfl
/-- The mask argument: region 0 reads it through an input window. -/
theorem W5_main_arg2 (c : Dev nD) : W5 m c main_arg2 = m ((c : Thread nD τ).loc main_arg2) :=
  (W5_of m c main_arg2 (by decide)).trans <| (W4_of_ne m c main_arg2 (by decide)).trans <| (W3_of m c main_arg2 (by decide)).trans <|
    (W2_in m c 1 rfl).trans <| (W1_of m c main_arg2 (by decide)).trans rfl
/-- The bias argument: no stretch writes it and no region stages it. -/
theorem W5_main_arg3 (c : Dev nD) : W5 m c main_arg3 = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the region's invariant
    and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. As region 0, but the
    region's invariant carries the accumulator between grid points: it starts as the scoped rest with the generator
    register and gives the same back at the end, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec1 c) ?_ (show Pipeline.ΦA spec1 c ⊢ (pdats m 1 c).Φ 0 from hin1 (E3 m) c)
    unfold Pipeline.ΦA
    iintro ⟨Hp, -, Hr⟩
    isplitl [Hr]; · iexact Hr
    iexact Hp
  hout c := by
    rw [Pipeline.ownSems0_none]
    refine BIBase.Entails.trans (Q := Pipeline.ΦA spec1 c) (show (pdats m 1 c).Φ (Fin.last _) ⊢ Pipeline.ΦA spec1 c from hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (mainSegs m) := (main_chain c).trans (by chain_rfl)

set_option backward.isDefEq.respectTransparency.types false in
/-- THE RUN: from any memory with zero counters, every weakly fair execution of @main on the TensorCores terminates,
    nothing faulting, and every final state has every unscoped buffer at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.Kernel.Frame

end
-- ==== Proof.KernelIdeal.MaskMul.lean ====
import proofs.«155387_j72567767433792_2_alg».proof.Proof.Gen.KernelIdeal.Launch
import proofs.«155387_j72567767433792_2_alg».proof.Proof.Gen.KernelIdeal.Skeleton
import proofs.«155387_j72567767433792_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! # Region 0: the elementwise product of the weight and the mask, rounded to bf16, block row by block row -/

/-- Window `w`'s block at grid point `t`, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight's block at every point, for any proof data whose
    array is the entry contents and whose body leaves the block where it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask window's staging buffer holds the mask's block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole [256, 4096] block. -/
abbrev r0_0 : Rect S256x4096 := Rect.unit (s := S256x4096) ![0, 0] S256x4096.size inb_S256x4096_S256x4096_0_0

/-- The output block after the body, from the weight block `x0` and the mask block `x1`: the single store,
    of the rounded product of the two blocks as read over the whole rectangle. -/
def out0_2 (x0 x1 : Vec F S256x4096 .f32) : Vec F S256x4096 .bf16 :=
  View.canon [⟨r0_0, k0_pay1 (View.ld x0 r0_0) (View.ld x1 r0_0)⟩]

/-- The single store's rectangle is the whole block, so every index of the block lies in it. -/
theorem cover0_2 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging memrefs: with the two inputs at contents `x0`, `x1` and the output at anything,
    it runs to the continuation with the inputs unchanged and the output at `out0_2 x0 x1`. The output's
    old contents are read once (the value is unused) and then overwritten. -/
theorem sound_kernel0 (c : Dev nD) (E : Set ℕ) (i : grid0.Coords)
    (arg1 : Memref sig .tc .vmem S256x4096 .f32) (harg1 : arg1.IsWhole)
    (arg2 : Memref sig .tc .vmem S256x4096 .f32) (harg2 : arg2.IsWhole)
    (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__mask_mul_kernel i arg1 harg1 arg2 harg2 arg3 harg3) K := by
  simp only [cc0__mask_mul_kernel_eq_skeleton]; unfold cc0__mask_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as entered; after the body at point `t` the weight
    and mask buffers at their blocks and the output buffer at the rounded product of the two blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.Matmul.lean ====
import proofs.«155387_j72567767433792_2_alg».proof.Proof.Gen.KernelIdeal.Launch
import proofs.«155387_j72567767433792_2_alg».proof.Proof.Gen.KernelIdeal.Skeleton
import proofs.«155387_j72567767433792_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter, instantiated by the run
variable (V : (c : Dev nD) → (b : Ref sig .tc) → Buf (Elt F) ((c : Thread nD τ).loc b))

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data window's current staging buffer holds its block at every point: the blocks tile the array, the
    body leaves the block in place, and an unfetched point has the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the weight window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of the bias window, which is fetched only where its block index moves (every eighth point):
    in between the buffer still holds the block, which is the current point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the 128 grid points -/

/-- "This is the first K-chunk" (the innermost grid coordinate is 0): the accumulator is reset. -/
abbrev cond1_0 (i : grid1.Coords) : Prop := (Scalar.cmpi .ne (Scalar.extui (Scalar.cmpi .eq (BitVec.ofNat 32 (i 2).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last K-chunk" (the innermost grid coordinate is 7): the accumulator plus bias is stored. -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first chunk the output block is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a middle chunk likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last chunk the output block is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1024x2048 .f32 := (Memref.whole cc1_stg3_0 : Memref sig .tc .vmem S1024x2048 .f32).view
/-- Each window's current staging memref at point `t`, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x2048 .f32 := Memref.whole cc1_scratch0
/-- The accumulator as a view: what it holds is stated through it. -/
abbrev VS1_0 : View sig .tc .vmem S1024x2048 .f32 := scM1_0.view

/-- The scoped buffers this kernel never touches (the other kernel's six staging buffers), each at some contents. -/
def restO (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region's entry invariant: the untouched scoped buffers, the accumulator owned at some contents, and
    the generator register at some state. -/
theorem PhiA1_eq (c : Dev nD) :
    (Pipeline.ΦA spec1 c : sProp 𝕄)
      = iprop(restO (F := F) c ∗ (∃ d, owns (c : Thread nD τ) scM1_0 fullShare d) ∗ (∃ r, prngReg c r)) := by
  unfold Pipeline.ΦA; rw [scopedRest1_eq]; simp only [scM1_0, owns_whole]; unfold restO
  refine BI.equiv_iff.mp ⟨?_, ?_⟩
  · show (_ : sProp 𝕄) ⊢ _
    iintro ⟨⟨R1, R2, R3, R4, R5, R6, HS⟩, Hg⟩
    isplitl [R1 R2 R3 R4 R5 R6]
    · isplitl [R1]; · iexact R1
      isplitl [R2]; · iexact R2
      isplitl [R3]; · iexact R3
      isplitl [R4]; · iexact R4
      isplitl [R5]; · iexact R5
      iexact R6
    isplitl [HS]; · iexact HS
    iexact Hg
  · show (_ : sProp 𝕄) ⊢ _
    iintro ⟨⟨R1, R2, R3, R4, R5, R6⟩, HS, Hg⟩
    isplitl [R1 R2 R3 R4 R5 R6 HS]
    · isplitl [R1]; · iexact R1
      isplitl [R2]; · iexact R2
      isplitl [R3]; · iexact R3
      isplitl [R4]; · iexact R4
      isplitl [R5]; · iexact R5
      isplitl [R6]; · iexact R6
      iexact HS
    iexact Hg

/-! ## The kernel body on any whole memrefs, case by case

Three cases of the two conditions: A = first chunk (reset the accumulator, then accumulate; the output idle),
B = middle chunk (accumulate; the output idle), C = last chunk (accumulate, then store accumulator plus bias
into the output). Each run is stated with the inputs owned at their contents and handed back unchanged, and
names, as lists of written pieces (last write first), what the stores leave in the accumulator and in the output. -/

set_option maxHeartbeats 1000000 in
/-- Case A: the accumulator is taken at anything (it is overwritten by zeros before it is read for the sum),
    the idle output is handed back as found. -/
noncomputable def kernelRun1_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B: the accumulator is owned at what the point before left (`xs0`); the idle output is handed back as found. -/
noncomputable def kernelRun1_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨[], ?_, fun xi3 E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C: the accumulator is owned at what the point before left (`xs0`); the output is taken at anything and
    left with its written pieces. -/
noncomputable def kernelRun1_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_bias_kernel i arg3 harg3 arg4 harg4 arg5 harg5 arg6 harg6 arg7 harg7) K } := by
  refine ⟨?_, ?_, fun E K => ?run⟩
  case run =>
    simp only [cc1__matmul_bias_kernel_eq_skeleton]; unfold cc1__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves in the output buffer and in the accumulator -/

/-- Case A stores nothing into the output: a placeholder that nothing consults (the window is idle there). -/
def out1_A_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What case A leaves in the accumulator: its written pieces read back. -/
def sout1_A_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .bf16) (x1 : Vec F S2048x512 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into the output: a placeholder that nothing consults. -/
def out1_B_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's store into the accumulator covers it. -/
theorem scover1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What case B leaves in the accumulator. -/
def sout1_B_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .bf16) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's store into the output covers its block. -/
theorem cover1_C_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What case C leaves in the output's staging buffer: accumulator plus bias. -/
def out1_C_3 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's store into the accumulator covers it. -/
theorem scover1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What case C leaves in the accumulator. -/
def sout1_C_0 (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .bf16) (x1 : Vec F S2048x512 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## The accumulation, point by point -/

/-- What the output's staging buffer (first component) and the accumulator (second component) hold after the
    body at position `n`: the case the position's residue mod 8 selects, run on the point's blocks, the
    accumulator of cases B and C taken at what position `n - 1` left. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first chunk. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle chunk: over what the point before left in the accumulator. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last chunk: over what the point before left in the accumulator. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the entry invariant (accumulator at anything);
    afterwards the untouched scoped buffers, the accumulator at what position `n - 1` left, the generator register. -/
def PhiS1 (c : Dev nD) : (n : ℕ) → n ≤ cfg1.N → sProp 𝕄
  | 0, _ => Pipeline.ΦA spec1 c
  | n + 1, hn => iprop(restO (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restO (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(restO (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- The proof data of the pipeline on core `c`: the arrays as the region finds them; after the body each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · -- a first chunk: the accumulator is reset, so whatever it held is enough
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨HR, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · -- a last chunk: accumulate over what the point before left, then store accumulator plus bias into the output
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a middle chunk: accumulate over what the point before left
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨HR, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR]; · iexact HR
        isplitl [HS0]
        · unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, HS0, Hg⟩
  isplitl [HR]; · iexact HR
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Frame

end
-- ==== Proof.KernelIdeal.Run.lean ====
/-
  The whole run of the program, at any float interpretation: the host stretch (flatten the data and round it),
  region 0 (the masked weight), the host stretch (the bias as a row), region 1 (the tiled product with the
  bias added), the host stretch (un-flatten), threaded through the buffers' contents at each boundary; every
  weakly fair execution terminates and ends with every unscoped buffer at the last boundary's contents.
-/
import proofs.«155387_j72567767433792_2_alg».proof.Proof.KernelIdeal.MaskMul
import proofs.«155387_j72567767433792_2_alg».proof.Proof.KernelIdeal.Matmul
import proofs.«155387_j72567767433792_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => m (c, b)
/-- After the first host stretch (the data flattened to [8192, 4096] and rounded): region 0's entry. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At region 0's exit: its arrays at what its write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the bias as a [1, 4096] row): region 1's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit: its arrays at what its write-backs leave, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the last host stretch (the result un-flattened to [4, 2048, 4096]): what the program returns with. -/
abbrev W5 : Dev nD → Valuation τ sig (Elt F) := fun c => StableHlo.after hostOps2 (W4 m c)

/-! ## What each boundary keeps of the one before -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
/-- An input window's array leaves region 1 as it entered. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))

/-- The data argument reaches the end as launched: no stretch writes it and no region stages it. -/
theorem W5_main_arg0 (c : Dev nD) : W5 m c main_arg0 = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
/-- The weight argument: region 0 reads it through an input window. -/
theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <|
    (W2_in m c 0 rfl).trans <| (W1_of m c main_arg1 (by decide)).trans rfl
/-- The mask argument: region 0 reads it through an input window. -/
theorem W5_main_arg2 (c : Dev nD) : W5 m c main_arg2 = m ((c : Thread nD τ).loc main_arg2) :=
  (W5_of m c main_arg2 (by decide)).trans <| (W4_of_ne m c main_arg2 (by decide)).trans <| (W3_of m c main_arg2 (by decide)).trans <|
    (W2_in m c 1 rfl).trans <| (W1_of m c main_arg2 (by decide)).trans rfl
/-- The bias argument: no stretch writes it and no region stages it. -/
theorem W5_main_arg3 (c : Dev nD) : W5 m c main_arg3 = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are split out
    of the unscoped buffers and put back at the exit contents; the generator register goes into the region's invariant
    and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. As region 0, but the
    region's invariant carries the accumulator between grid points: it starts as the scoped rest with the generator
    register and gives the same back at the end, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec1 c) ?_ (show Pipeline.ΦA spec1 c ⊢ (pdats m 1 c).Φ 0 from hin1 (E3 m) c)
    unfold Pipeline.ΦA
    iintro ⟨Hp, -, Hr⟩
    isplitl [Hr]; · iexact Hr
    iexact Hp
  hout c := by
    rw [Pipeline.ownSems0_none]
    refine BIBase.Entails.trans (Q := Pipeline.ΦA spec1 c) (show (pdats m 1 c).Φ (Fin.last _) ⊢ Pipeline.ΦA spec1 c from hout1 (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (mainSegs m) := (main_chain c).trans (by chain_rfl)

set_option backward.isDefEq.respectTransparency.types false in
/-- THE RUN: from any memory with zero counters, every weakly fair execution of @main on the TensorCores terminates,
    nothing faulting, and every final state has every unscoped buffer at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run m ρ)

end Cert.KernelIdeal.Frame

end
-- ==== Proof.MaskMulValue.lean ====
import proofs.«155387_j72567767433792_2_alg».proof.Proof.KernelIdeal.MaskMul
import Idealize.ShloMosaic.Lib.Pipeline.Value
import Idealize.ShloMosaic.Lib.ValueIdx
import Idealize.ShloMosaic.PureOps.Ideal.Laws

set_option maxRecDepth 16384

noncomputable section

namespace Cert.KernelIdeal.MaskMulValue

open Cert.KernelIdeal Cert.KernelIdeal.Gen Cert.KernelIdeal.Frame
open Idealize.ShloMosaic Idealize.ShloMosaic.TcCoe Idealize.SL.Sem
open Idealize.ShloMosaic.Pipeline (Dat)

/-! # Region 0 at the extended reals: the masked weight as one array

Rounding to bf16 is the identity on extended reals, so each grid point writes back the entrywise product
of its weight block and its mask block. The sixteen blocks are the sixteen bands of 256 rows, so
together they fill the [4096, 4096] array, which ends holding weight × mask entry by entry. -/

/-- The entrywise product of two [4096, 4096] arrays of extended reals. -/
abbrev entryProd (a0 a1 : S4096x4096.Idx → EReal) : S4096x4096.Idx → EReal := fun j => a0 j * a1 j

/-- The product of two arrays read at entries that both coincide with a third is the product array read there. -/
theorem entryProd_at (a0 a1 : S4096x4096.Idx → EReal) (i0 i1 i : S4096x4096.Idx) (h0 : i0 = i) (h1 : i1 = i) :
    a0 i0 * a1 i1 = entryProd a0 a1 i := by subst h0; subst h1; rfl

theorem zero_off : (![0, 0] : Fin 2 → Nat) = fun _ => 0 := funext fun a => by fin_cases a <;> rfl

/-- At the extended reals the body's arithmetic on two [256, 4096] blocks is their entrywise product:
    the product is the extended reals' and the narrowing to bf16 changes nothing. -/
theorem pay_eq (x0 x1 : Vec Ideal S256x4096 .f32) :
    (k0_pay1 x0 x1 : Vec Ideal S256x4096 .bf16) = fun j => (x0 j : EReal) * (x1 j : EReal) := rfl

/-- The three windows' block indices at a grid point: all three are (t, 0), the t-th band of rows. -/
theorem band_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is band `t` of the entrywise product of the weight and the mask
    as the region finds them: each input block is its array read over the same band of rows. -/
theorem flushed_eq (c : Dev nD) (t : Fin cfg0.N) :
    (dat0 (F := Ideal) V c).flushed 2 t
      = ((cfg0.win 2).blk t).view.read (Elt Ideal) (entryProd (V c main_arg1) (V c main_arg2)) := by
  show (cfg0.win 2).cut (grid0.coords t) ((dat0 (F := Ideal) V c).after 2 t) = _
  rw [after0_2]
  unfold out0_2
  rw [View.canon_unit_zero zero_off]
  simp only [View.ld_unit_zero (S := S256x4096) zero_off]
  rw [pay_eq]
  obtain ⟨e0, e1, e2, e3, -, -⟩ := band_facts t
  funext j
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  exact entryProd_at (V c main_arg1) (V c main_arg2) (((cfg0.win 0).blk t).view.emb j) (((cfg0.win 1).blk t).view.emb j)
    (((cfg0.win 2).blk t).view.emb j) h0 h1

/-- An entry of the array lies in grid point `t`'s block iff each coordinate is in the block's range. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- Every entry is written back by some grid point: row `r` lies in band `r / 256`. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 16 := N_0
  let t : Fin cfg0.N := ⟨(i 0).val / 256, by rw [hN]; omega⟩
  obtain ⟨-, -, -, -, q0, q1⟩ := band_facts t
  have q0' : win0_2.index t (0 : Fin 2) = (i 0).val / 256 := q0
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- After region 0 the array `main_v2` holds weight × mask, entry by entry. -/
theorem masked_weight (c : Dev nD) :
    (Cert.KernelIdeal.Frame.dat0 (F := Ideal) V c).arrAt 2 cfg0.N = entryProd (V c main_arg1) (V c main_arg2) :=
  (dat0 (F := Ideal) V c).arrAt_eq_of_cover 2 (entryProd (V c main_arg1) (V c main_arg2))
    (fun t _ => flushed_eq V c t) covered

/-- The same, entry by entry. -/
theorem masked_weight_apply (c : Dev nD) (j : S4096x4096.Idx) :
    ((Cert.KernelIdeal.Frame.dat0 (F := Ideal) V c).arrAt 2 cfg0.N : S4096x4096.Idx → EReal) j
      = entryProd (V c main_arg1) (V c main_arg2) j :=
  congrFun (masked_weight V c) j

end Cert.KernelIdeal.MaskMulValue

end
-- ==== Proof.MatmulPoint.lean ====
import proofs.«155387_j72567767433792_2_alg».proof.Proof.Gen.KernelIdeal.Skeleton
import proofs.«155387_j72567767433792_2_alg».proof.Proof.Gen.KernelIdeal.Launch
import proofs.«155387_j72567767433792_2_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

/-! # The matmul-with-bias region at one grid point, at the ideal values

The grid is 8 × 2 × 8: a point `t` has row-block `t / 16`, column-block `(t / 8) % 2` and contraction chunk `t % 8`.
At a point the body sees a 1024 × 512 block of the data, a 2048 × 512 block of the masked weight and a 1 × 2048 block of
the bias. This module reads, index by index, the three values the body stores (the zero the accumulator starts from, the
accumulator plus the chunk's partial products, the accumulator plus the bias row) and the three input blocks as
restrictions of their arrays. -/

noncomputable section

namespace Cert.KernelIdeal.MatmulPoint

open Cert.KernelIdeal Cert.KernelIdeal.Gen Idealize.ShloMosaic Idealize.ShloMosaic.ValueIdx

open scoped BigOperators

/-- A point of the 8 × 2 × 8 grid is below 128. -/
theorem pt_lt (t : Fin cfg1.N) : t.val < 128 := lt_of_lt_of_eq t.isLt N_1

/-! ## The three stored values at an index -/

/-- The accumulator starts from zero. -/
theorem pay1_apply (j : S1024x2048.Idx) : k1_pay1 (F := Ideal) j = (0 : EReal) := by
  unfold k1_pay1
  refine (congrFun (shapeCast_self _ _) j).trans ?_
  exact Ideal.ofBits_zero_f32

/-! The contraction pairs axis 1 of the data block with axis 1 of the weight block; the output's row comes from the
data block's axis 0 and its column from the weight block's axis 0. -/

theorem lhs_mm_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_mm_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_mm_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_mm_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The product of a data block and a weight block into a zero accumulator, at row `r` and column `n`: the sum over the
    512 contraction positions of data at (r, q) times weight at (n, q). -/
theorem mm_apply (y0 : FVec Ideal S1024x512 .bf16) (y1 : FVec Ideal S2048x512 .bf16) (r : Fin 1024) (n : Fin 2048) :
    matmul (F := Ideal) dot_S1024x512_S2048x512_S1024x2048_1_1_0_0_n_n none y0 y1 (constant (F := Ideal) S1024x2048 .f32 0x00000000#32) (ix2 r n)
      = ∑ q : Fin 512, y0 (ix2 r q) * y1 (ix2 n q) := by
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 r n) ((contrEquiv1 dot_S1024x512_S2048x512_S1024x2048_1_1_0_0_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S2048x512_S1024x2048_1_1_0_0_n_n.rhsIdx (ix2 r n) ((contrEquiv1 dot_S1024x512_S2048x512_S1024x2048_1_1_0_0_n_n 512 rfl rfl).symm k) = ix2 n k := funext fun a => Fin.ext (by
    match a with
    | ⟨0, _⟩ => exact rhs_mm_0 _ _
    | ⟨1, _⟩ => exact (rhs_mm_1 _ _).trans hk)
  rw [el, er]

/-- One chunk's step: the accumulator plus the sum over the chunk's 512 contraction positions of data × weight. -/
theorem pay2_apply (x0 : Vec Ideal S1024x512 .bf16) (x1 : Vec Ideal S2048x512 .bf16) (xs : Vec Ideal S1024x2048 .f32)
    (r : Fin 1024) (n : Fin 2048) :
    k1_pay2 (F := Ideal) x0 x1 xs (ix2 r n) = xs (ix2 r n) + ∑ q : Fin 512, x0 (ix2 r q) * x1 (ix2 n q) := by
  unfold k1_pay2
  refine (congrFun (shapeCast_self _ _) (ix2 r n)).trans ?_
  refine (addf_apply _ _ _).trans ?_
  refine congrArg (xs (ix2 r n) + ·) ?_
  refine Eq.trans ?_ (mm_apply x0 x1 r n)
  exact congrArg₂ (fun a b => matmul (F := Ideal) dot_S1024x512_S2048x512_S1024x2048_1_1_0_0_n_n none a b (constant (F := Ideal) S1024x2048 .f32 0x00000000#32) (ix2 r n))
    (shapeCast_self _ _) (shapeCast_self _ _)

/-- The last step: the accumulator plus the bias row, the same in every row. -/
theorem pay3_apply (a : Vec Ideal S1024x2048 .f32) (x2 : Vec Ideal S1x2048 .f32) (r : Fin 1024) (n : Fin 2048) :
    k1_pay3 (F := Ideal) a x2 (ix2 r n) = a (ix2 r n) + x2 (ix2 ⟨0, Nat.one_pos⟩ n) := by
  unfold k1_pay3
  refine (addf_apply _ _ _).trans ?_
  refine congrArg (a (ix2 r n) + ·) ?_
  refine (broadcastTo_apply _ broadcasts_S1x2048_S1024x2048 (ix2 r n) (ix2 ⟨0, Nat.one_pos⟩ n) (fun b => match b with
    | ⟨0, _⟩ => by show 0 = if (1 : Nat) = 1 then 0 else r.val; rw [if_pos rfl]
    | ⟨1, _⟩ => by show n.val = if (2048 : Nat) = 1 then 0 else n.val; rw [if_neg (by decide)])).trans ?_
  exact congrFun (shapeCast_self _ _) _

/-! ## The three input blocks as restrictions of their arrays -/

/-- The block index of each input window at a point, decided over the 128 points: the data block moves with the
    row-block and the chunk, the weight block with the column-block and the chunk, the bias block with the column-block. -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2 :=
  (by decide +kernel : ∀ t : Fin grid1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2)

/-- The data block at point `t`: rows `(t / 16) · 1024 …`, columns `(t % 8) · 512 …`. -/
theorem blk0_read (X : Vec Ideal S8192x4096 .bf16) (t : Fin cfg1.N) (r : Fin 1024) (q : Fin 512) :
    ((cfg1.win 0).blk t).view.read (Elt Ideal) X (ix2 r q)
      = X (ix2 ⟨t.val / 16 * 1024 + r.val, by have := pt_lt t; have := r.isLt; omega⟩
               ⟨t.val % 8 * 512 + q.val, by have := q.isLt; omega⟩) := by
  obtain ⟨e0, e1, -, -, -, -⟩ := idx_facts t
  show X (((cfg1.win 0).blk t).view.emb (ix2 r q)) = X _
  refine congrArg X (funext fun a => Fin.ext ?_)
  match a with
  | ⟨0, _⟩ => show win1_0.index t (0 : Fin 2) * 1024 + 1 * r.val = t.val / 16 * 1024 + r.val; rw [e0]; omega
  | ⟨1, _⟩ => show win1_0.index t (1 : Fin 2) * 512 + 1 * q.val = t.val % 8 * 512 + q.val; rw [e1]; omega

/-- The weight block at point `t`: rows `((t / 8) % 2) · 2048 …`, columns `(t % 8) · 512 …`. -/
theorem blk1_read (X : Vec Ideal S4096x4096 .bf16) (t : Fin cfg1.N) (n : Fin 2048) (q : Fin 512) :
    ((cfg1.win 1).blk t).view.read (Elt Ideal) X (ix2 n q)
      = X (ix2 ⟨t.val / 8 % 2 * 2048 + n.val, by have := n.isLt; omega⟩
               ⟨t.val % 8 * 512 + q.val, by have := q.isLt; omega⟩) := by
  obtain ⟨-, -, e0, e1, -, -⟩ := idx_facts t
  show X (((cfg1.win 1).blk t).view.emb (ix2 n q)) = X _
  refine congrArg X (funext fun a => Fin.ext ?_)
  match a with
  | ⟨0, _⟩ => show win1_1.index t (0 : Fin 2) * 2048 + 1 * n.val = t.val / 8 % 2 * 2048 + n.val; rw [e0]; omega
  | ⟨1, _⟩ => show win1_1.index t (1 : Fin 2) * 512 + 1 * q.val = t.val % 8 * 512 + q.val; rw [e1]; omega

/-- The bias block at point `t`: the one row, columns `((t / 8) % 2) · 2048 …`. -/
theorem blk2_read (X : Vec Ideal S1x4096 .f32) (t : Fin cfg1.N) (n : Fin 2048) :
    ((cfg1.win 2).blk t).view.read (Elt Ideal) X (ix2 ⟨0, Nat.one_pos⟩ n)
      = X (ix2 ⟨0, Nat.one_pos⟩ ⟨t.val / 8 % 2 * 2048 + n.val, by have := n.isLt; omega⟩) := by
  obtain ⟨-, -, -, -, e0, e1⟩ := idx_facts t
  show X (((cfg1.win 2).blk t).view.emb (ix2 ⟨0, Nat.one_pos⟩ n)) = X _
  refine congrArg X (funext fun a => Fin.ext ?_)
  match a with
  | ⟨0, _⟩ => show win1_2.index t (0 : Fin 2) * 1 + 1 * 0 = 0; rw [e0]
  | ⟨1, _⟩ => show win1_2.index t (1 : Fin 2) * 2048 + 1 * n.val = t.val / 8 % 2 * 2048 + n.val; rw [e1]; omega

end Cert.KernelIdeal.MatmulPoint

end
-- ==== Proof.Spec.lean ====
/-
  The specification: a masked linear layer over the extended reals,
      out[b,s,n] = (Σ_{q<4096} data[b,s,q] · (weight[n,q] · mask[n,q])) + bias[n],
  its flattened form over rows m = b·2048 + s of an [8192,4096] matrix, and the two laws of
  arrangement used between them: a sum over 4096 terms is the sum of its 8 chunks of 512, and
  adding the chunks one after another on the right of 0 gives that sum.
  Only commutativity and associativity of + and the neutrality of 0 are used.
-/
import Idealize.ShloMosaic.Lib.ValueIdx
import Idealize.ShloMosaic.PureOps.Ideal
import Mathlib.Algebra.BigOperators.Fin
import Mathlib.Algebra.BigOperators.Group.Finset.Basic

noncomputable section

open scoped BigOperators

namespace Cert.Spec

open Idealize.ShloMosaic Idealize.ShloMosaic.ValueIdx

abbrev SD : Shape := ⟨3, ![4, 2048, 4096]⟩
abbrev SW : Shape := ⟨2, ![4096, 4096]⟩
abbrev SB : Shape := ⟨1, ![4096]⟩
abbrev SX : Shape := ⟨2, ![8192, 4096]⟩
abbrev SB2 : Shape := ⟨2, ![1, 4096]⟩

/-- The masked linear layer, index by index. -/
def linear (d : SD.Idx → EReal) (w k : SW.Idx → EReal) (b : SB.Idx → EReal) : SD.Idx → EReal :=
  fun i => (∑ q : Fin 4096, d (ix3 ⟨(i 0).val, (i 0).isLt⟩ ⟨(i 1).val, (i 1).isLt⟩ q)
      * (w (ix2 ⟨(i 2).val, (i 2).isLt⟩ q) * k (ix2 ⟨(i 2).val, (i 2).isLt⟩ q)))
    + b (ix1 ⟨(i 2).val, (i 2).isLt⟩)

/-- The same layer on a matrix of rows: x · wmᵀ + b2. -/
def linear2 (x : SX.Idx → EReal) (wm : SW.Idx → EReal) (b2 : SB2.Idx → EReal) : SX.Idx → EReal :=
  fun j => (∑ q : Fin 4096, x (ix2 ⟨(j 0).val, (j 0).isLt⟩ q) * wm (ix2 ⟨(j 1).val, (j 1).isLt⟩ q))
    + b2 (ix2 ⟨0, Nat.one_pos⟩ ⟨(j 1).val, (j 1).isLt⟩)

/-- A position below 4096 is a chunk number below 8 and a place below 512 inside the chunk:
    q = a · 512 + r, with a = q / 512 and r = q % 512. -/
def chunkEquiv : Fin 8 × Fin 512 ≃ Fin 4096 where
  toFun p := ⟨p.1.val * 512 + p.2.val, by omega⟩
  invFun q := (⟨q.val / 512, by omega⟩, ⟨q.val % 512, by omega⟩)
  left_inv p := by
    obtain ⟨a, r⟩ := p
    apply Prod.ext <;> apply Fin.ext <;> simp only [] <;> omega
  right_inv q := by
    apply Fin.ext; simp only []; omega

/-- A sum over 4096 terms is the sum over its 8 chunks of 512: re-index along q = a · 512 + r and
    split the sum over pairs into the double sum. -/
theorem sum_chunks (f : Fin 4096 → EReal) :
    ∑ q : Fin 4096, f q = ∑ a : Fin 8, ∑ r : Fin 512, f ⟨a.val * 512 + r.val, by omega⟩ := by
  rw [← Equiv.sum_comp chunkEquiv f, Fintype.sum_prod_type]
  rfl

/-- The accumulator after chunks 0..n-1: start at 0 and add chunk after chunk on the right. -/
def accum (g : ℕ → EReal) : ℕ → EReal
  | 0 => 0
  | n + 1 => accum g n + g n

/-- Adding g 0, …, g (n-1) one after another on the right of 0 is their sum. -/
theorem accum_eq_sum (g : ℕ → EReal) (n : ℕ) : accum g n = ∑ a ∈ Finset.range n, g a := by
  induction n with
  | zero => rfl
  | succ n ih => rw [Finset.sum_range_succ, ← ih]; rfl

/-- Eight chunks of 512 added one after another on the right of 0 give the whole sum over 4096. -/
theorem accum8 (f : Fin 4096 → EReal) :
    accum (fun a => ∑ r : Fin 512, f ⟨(a % 8) * 512 + r.val, by omega⟩) 8 = ∑ q : Fin 4096, f q := by
  rw [accum_eq_sum, Finset.sum_range, sum_chunks]
  refine Finset.sum_congr rfl fun a _ => Finset.sum_congr rfl fun r _ => ?_
  exact congrArg f (Fin.ext (by
    show (a.val % 8) * 512 + r.val = a.val * 512 + r.val
    rw [Nat.mod_eq_of_lt a.isLt]))

/-- The layer at (b, s, n) is the row form at (b·2048 + s, n). -/
theorem linear_eq_linear2 (d : SD.Idx → EReal) (w k : SW.Idx → EReal) (b : SB.Idx → EReal) (i : SD.Idx) :
    linear d w k b i
      = linear2
          (fun j => d (ix3 ⟨(j 0).val / 2048, by have h := idx2_lt0 j; omega⟩
                           ⟨(j 0).val % 2048, by omega⟩
                           ⟨(j 1).val, idx2_lt1 j⟩))
          (fun j => w j * k j)
          (fun j => b (ix1 ⟨(j 1).val, idx2_lt1 j⟩))
          (ix2 ⟨(i 0).val * 2048 + (i 1).val, by
                  have h0 : (i 0).val < 4 := (i 0).isLt
                  have h1 : (i 1).val < 2048 := (i 1).isLt
                  omega⟩
               ⟨(i 2).val, (i 2).isLt⟩) := by
  have h1 : (i 1).val < 2048 := (i 1).isLt
  unfold linear linear2
  -- term by term the two sums agree: row b·2048 + s has quotient b and remainder s by 2048
  refine congrArg₂ (· + ·) (Finset.sum_congr rfl fun q _ => congrArg₂ (· * ·) (congrArg d ?_) rfl) rfl
  funext a
  match a with
  | ⟨0, _⟩ => exact Fin.ext (by show (i 0).val = ((i 0).val * 2048 + (i 1).val) / 2048; omega)
  | ⟨1, _⟩ => exact Fin.ext (by show (i 1).val = ((i 0).val * 2048 + (i 1).val) % 2048; omega)
  | ⟨2, _⟩ => rfl

end Cert.Spec

end
-- ==== Proof.MatmulValue.lean ====
import proofs.«155387_j72567767433792_2_alg».proof.Proof.KernelIdeal.Matmul
import proofs.«155387_j72567767433792_2_alg».proof.Proof.MatmulPoint
import proofs.«155387_j72567767433792_2_alg».proof.Proof.Spec
import Idealize.ShloMosaic.Lib.Pipeline.Value
import Idealize.ShloMosaic.Lib.ValueIdx
import Idealize.ShloMosaic.Lib.Tactic

/-! # What the matmul-with-bias region leaves in its output array

The region's grid is 8 × 2 × 8. A point `t` works on the row block `t / 16` (1024 rows of the data), the column
block `(t / 8) % 2` (2048 rows of the masked weight, columns of the output) and the chunk `t % 8` of 512
positions of the contracted axis. Eight consecutive points share one output block: the first resets an accumulator
to zero and adds its chunk's products, the next six add theirs, the last adds its own and then stores accumulator
plus bias row into the output block, which is written back only there.

So after the point with chunk number `a` the accumulator holds, at row `r` and column `n` of the block, the sum
of the first `a + 1` chunk sums of data row × weight row, added one after another on the right of zero; after the
eighth that is the whole sum over the 4096 contracted positions, and the value stored into the output block is that
sum plus the bias entry of the column: the entry of the row-form linear layer. -/

set_option maxRecDepth 16384

noncomputable section

open scoped BigOperators

namespace Cert.KernelIdeal.MatmulValue

open Cert.KernelIdeal Cert.KernelIdeal.Gen Cert.KernelIdeal.Frame
open Idealize.ShloMosaic Idealize.ShloMosaic.TcCoe Idealize.ShloMosaic.Tactic Idealize.ShloMosaic.ValueIdx
open Idealize.SL.Sem
open Idealize.ShloMosaic.Pipeline (Dat)

theorem hz : (![0, 0] : Fin 2 → Nat) = fun _ => 0 := funext fun a => by fin_cases a <;> rfl

/-! ## What each case of the body leaves, as values of the blocks it was given -/

section Pieces

variable {F : FTy → Type} [FloatOps F]

/-- First chunk: the accumulator ends at the chunk's step taken from the zero block. -/
theorem sout_A (c : Dev nD) (i : grid1.Coords) (a3 : Memref sig .tc .vmem S1024x512 .bf16) (h3 : a3.IsWhole) (a4 : Memref sig .tc .vmem S2048x512 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : cond1_0 i) (hc1 : ¬cond1_1 i)
    (x0 : Vec F S1024x512 .bf16) (x1 : Vec F S2048x512 .bf16) (x2 : Vec F S1x2048 .f32) :
    sout1_A_0 c i a3 h3 a4 h4 a5 h5 a6 h6 a7 h7 hc0 hc1 x0 x1 x2 = k1_pay2 x0 x1 (k1_pay1 (F := F)) := by
  unfold sout1_A_0
  rw [View.read_writes_eq_canon _ _ _ (scover1_A_0 c i a3 h3 a4 h4 a5 h5 a6 h6 a7 h7 hc0 hc1 x0 x1 x2)]
  unfold kernelRun1_A
  dsimp only
  sl_unfold_words
  rw [View.canon_cons_unit_zero (S := S1024x2048) hz]
  simp only [View.readAt_eq_ld, h3.read_unread, h4.read_unread, View.readCov_unit_zero (S := S1024x2048) _ hz,
    View.ld_unit_zero (S := S1024x512) hz, View.ld_unit_zero (S := S2048x512) hz, View.ld_unit_zero (S := S1024x2048) hz]

/-- Middle chunk: the accumulator ends at the chunk's step taken from what it held. -/
theorem sout_B (c : Dev nD) (i : grid1.Coords) (a3 : Memref sig .tc .vmem S1024x512 .bf16) (h3 : a3.IsWhole) (a4 : Memref sig .tc .vmem S2048x512 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬cond1_0 i) (hc1 : ¬cond1_1 i)
    (x0 : Vec F S1024x512 .bf16) (x1 : Vec F S2048x512 .bf16) (x2 : Vec F S1x2048 .f32) (xs0 : Vec F S1024x2048 .f32) :
    sout1_B_0 c i a3 h3 a4 h4 a5 h5 a6 h6 a7 h7 hc0 hc1 x0 x1 x2 xs0 = k1_pay2 x0 x1 xs0 := by
  unfold sout1_B_0
  rw [View.read_writes_eq_canon _ _ _ (scover1_B_0 c i a3 h3 a4 h4 a5 h5 a6 h6 a7 h7 hc0 hc1 x0 x1 x2 xs0)]
  unfold kernelRun1_B
  dsimp only
  sl_unfold_words
  rw [View.canon_unit_zero hz]
  simp only [View.readAt_eq_ld, h3.read_unread, h4.read_unread, h7.read_unread,
    View.ld_unit_zero (S := S1024x512) hz, View.ld_unit_zero (S := S2048x512) hz, View.ld_unit_zero (S := S1024x2048) hz]

/-- Last chunk: the accumulator likewise, -/
theorem sout_C (c : Dev nD) (i : grid1.Coords) (a3 : Memref sig .tc .vmem S1024x512 .bf16) (h3 : a3.IsWhole) (a4 : Memref sig .tc .vmem S2048x512 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬cond1_0 i) (hc1 : cond1_1 i)
    (x0 : Vec F S1024x512 .bf16) (x1 : Vec F S2048x512 .bf16) (x2 : Vec F S1x2048 .f32) (xs0 : Vec F S1024x2048 .f32) :
    sout1_C_0 c i a3 h3 a4 h4 a5 h5 a6 h6 a7 h7 hc0 hc1 x0 x1 x2 xs0 = k1_pay2 x0 x1 xs0 := by
  unfold sout1_C_0
  rw [View.read_writes_eq_canon _ _ _ (scover1_C_0 c i a3 h3 a4 h4 a5 h5 a6 h6 a7 h7 hc0 hc1 x0 x1 x2 xs0)]
  unfold kernelRun1_C
  dsimp only
  sl_unfold_words
  rw [View.canon_unit_zero hz]
  simp only [View.readAt_eq_ld, h3.read_unread, h4.read_unread, h7.read_unread,
    View.ld_unit_zero (S := S1024x512) hz, View.ld_unit_zero (S := S2048x512) hz, View.ld_unit_zero (S := S1024x2048) hz]

/-- and the output block ends at that accumulator plus the bias row. -/
theorem out_C (c : Dev nD) (i : grid1.Coords) (a3 : Memref sig .tc .vmem S1024x512 .bf16) (h3 : a3.IsWhole) (a4 : Memref sig .tc .vmem S2048x512 .bf16) (h4 : a4.IsWhole) (a5 : Memref sig .tc .vmem S1x2048 .f32) (h5 : a5.IsWhole) (a6 : Memref sig .tc .vmem S1024x2048 .f32) (h6 : a6.IsWhole) (a7 : Memref sig .tc .vmem S1024x2048 .f32) (h7 : a7.IsWhole) (hc0 : ¬cond1_0 i) (hc1 : cond1_1 i)
    (x0 : Vec F S1024x512 .bf16) (x1 : Vec F S2048x512 .bf16) (x2 : Vec F S1x2048 .f32) (xs0 : Vec F S1024x2048 .f32) :
    out1_C_3 c i a3 h3 a4 h4 a5 h5 a6 h6 a7 h7 hc0 hc1 x0 x1 x2 xs0 = k1_pay3 (k1_pay2 x0 x1 xs0) x2 := by
  unfold out1_C_3
  rw [View.read_writes_eq_canon _ _ _ (cover1_C_3 c i a3 h3 a4 h4 a5 h5 a6 h6 a7 h7 hc0 hc1 x0 x1 x2 xs0)]
  unfold kernelRun1_C
  dsimp only
  sl_unfold_words
  rw [View.canon_unit_zero hz]
  simp only [View.readAt_eq_ld, h3.read_unread, h4.read_unread, h5.read_unread, h7.read_unread, View.readCov_unit_zero (S := S1024x2048) _ hz,
    View.ld_unit_zero (S := S1024x512) hz, View.ld_unit_zero (S := S2048x512) hz, View.ld_unit_zero (S := S1x2048) hz, View.ld_unit_zero (S := S1024x2048) hz]

end Pieces

/-! ## The accumulator after each point, at the ideal values -/

-- the contents of the core's buffers when the region is entered
variable (V : (c : Dev nD) → (b : Ref sig .tc) → Buf (Elt Ideal) ((c : Thread nD τ).loc b))

/-- The data matrix, the masked weight matrix and the bias row as the region finds them. -/
abbrev xarr (c : Dev nD) : Vec Ideal S8192x4096 .bf16 := V c main_v1
abbrev warr (c : Dev nD) : Vec Ideal S4096x4096 .bf16 := V c main_v2
abbrev barr (c : Dev nD) : Vec Ideal S1x4096 .f32 := V c main_v3

/-- Their blocks at a point. -/
abbrev xblk (c : Dev nD) (t : Fin cfg1.N) : Vec Ideal S1024x512 .bf16 := iblk1 V c 0 t
abbrev wblk (c : Dev nD) (t : Fin cfg1.N) : Vec Ideal S2048x512 .bf16 := iblk1 V c 1 t
abbrev bblk (c : Dev nD) (t : Fin cfg1.N) : Vec Ideal S1x2048 .f32 := iblk1 V c 2 t

theorem xblk_apply (c : Dev nD) (t : Fin cfg1.N) (r : Fin 1024) (q : Fin 512) :
    xblk V c t (ix2 r q) = xarr V c (ix2 ⟨t.val / 16 * 1024 + r.val, by have := MatmulPoint.pt_lt t; have := r.isLt; omega⟩
      ⟨t.val % 8 * 512 + q.val, by have := q.isLt; omega⟩) :=
  MatmulPoint.blk0_read (xarr V c) t r q

theorem wblk_apply (c : Dev nD) (t : Fin cfg1.N) (n : Fin 2048) (q : Fin 512) :
    wblk V c t (ix2 n q) = warr V c (ix2 ⟨t.val / 8 % 2 * 2048 + n.val, by have := n.isLt; omega⟩
      ⟨t.val % 8 * 512 + q.val, by have := q.isLt; omega⟩) :=
  MatmulPoint.blk1_read (warr V c) t n q

theorem bblk_apply (c : Dev nD) (t : Fin cfg1.N) (n : Fin 2048) :
    bblk V c t (ix2 ⟨0, Nat.one_pos⟩ n) = barr V c (ix2 ⟨0, Nat.one_pos⟩ ⟨t.val / 8 % 2 * 2048 + n.val, by have := n.isLt; omega⟩) :=
  MatmulPoint.blk2_read (barr V c) t n

/-- Chunk `a`'s sum of products of data row `m` and weight row `n`: 512 of the 4096 contracted positions. -/
def chunk (X : Vec Ideal S8192x4096 .bf16) (W : Vec Ideal S4096x4096 .bf16) (m : Fin 8192) (n : Fin 4096) (a : ℕ) : EReal :=
  ∑ q : Fin 512, X (ix2 m ⟨(a % 8) * 512 + q.val, by have := q.isLt; omega⟩) * W (ix2 n ⟨(a % 8) * 512 + q.val, by have := q.isLt; omega⟩)

/-- One step of the accumulation at one entry: if the accumulator holds the first `t % 8` chunk sums, the body's
    update leaves the first `t % 8 + 1`. -/
theorem step (X : Vec Ideal S8192x4096 .bf16) (W : Vec Ideal S4096x4096 .bf16) (t : Fin cfg1.N)
    (xb : Vec Ideal S1024x512 .bf16) (wb : Vec Ideal S2048x512 .bf16) (acc : Vec Ideal S1024x2048 .f32)
    (r : Fin 1024) (n : Fin 2048) (m : Fin 8192) (n' : Fin 4096)
    (hx : ∀ q : Fin 512, xb (ix2 r q) = X (ix2 m ⟨t.val % 8 * 512 + q.val, by have := q.isLt; omega⟩))
    (hw : ∀ q : Fin 512, wb (ix2 n q) = W (ix2 n' ⟨t.val % 8 * 512 + q.val, by have := q.isLt; omega⟩))
    (hacc : acc (ix2 r n) = Spec.accum (chunk X W m n') (t.val % 8)) :
    k1_pay2 (F := Ideal) xb wb acc (ix2 r n) = Spec.accum (chunk X W m n') (t.val % 8 + 1) := by
  refine (MatmulPoint.pay2_apply xb wb acc r n).trans ?_
  rw [hacc]
  show _ = Spec.accum (chunk X W m n') (t.val % 8) + chunk X W m n' (t.val % 8)
  congr 1
  unfold chunk
  refine Finset.sum_congr rfl fun q _ => ?_
  rw [hx q, hw q]
  simp only [Nat.mod_mod]

/-- The accumulated chunk sums depend on the rows and on the count only through their values. -/
theorem accum_congr (X : Vec Ideal S8192x4096 .bf16) (W : Vec Ideal S4096x4096 .bf16) {m m' : Fin 8192} {n n' : Fin 4096} {a a' : ℕ}
    (hm : m.val = m'.val) (hn : n.val = n'.val) (ha : a = a') :
    Spec.accum (chunk X W m n) a = Spec.accum (chunk X W m' n') a' := by
  obtain rfl : m = m' := Fin.ext hm
  obtain rfl : n = n' := Fin.ext hn
  subst ha
  rfl

/-- All eight chunk sums are the sum over the 4096 contracted positions; with the bias entry, the linear layer's entry. -/
theorem whole (X : Vec Ideal S8192x4096 .bf16) (W : Vec Ideal S4096x4096 .bf16) (B : Vec Ideal S1x4096 .f32) (m : Fin 8192) (n' : Fin 4096) :
    Spec.accum (chunk X W m n') 8 + B (ix2 ⟨0, Nat.one_pos⟩ n') = Spec.linear2 X W B (ix2 m n') := by
  show _ = (∑ q : Fin 4096, X (ix2 m q) * W (ix2 n' q)) + B (ix2 ⟨0, Nat.one_pos⟩ n')
  exact congrArg (· + B (ix2 ⟨0, Nat.one_pos⟩ n')) (Spec.accum8 (fun q => X (ix2 m q) * W (ix2 n' q)))

/-- THE INVARIANT: after point `k` the accumulator holds, at row `r` and column `n` of the block, the first
    `k % 8 + 1` chunk sums of data row `(k / 16)·1024 + r` and weight row `((k / 8) % 2)·2048 + n`. -/
theorem scratch_eq (c : Dev nD) : ∀ (k : ℕ) (hk : k < cfg1.N) (r : Fin 1024) (n : Fin 2048),
    (outsAt1 V c k hk).2 (ix2 r n)
      = Spec.accum (chunk (xarr V c) (warr V c)
          ⟨k / 16 * 1024 + r.val, by have := lt_of_lt_of_eq hk N_1; have := r.isLt; omega⟩
          ⟨k / 8 % 2 * 2048 + n.val, by have := n.isLt; omega⟩) (k % 8 + 1)
  | 0, hk, r, n => by
    rw [outsAt1_A V c ⟨0, hk⟩ (Nat.zero_mod _) (show ¬(0 : ℕ) % 8 = 7 by decide)]
    dsimp only
    refine (congrFun (sout_A (F := Ideal) c (grid1.coords ⟨0, hk⟩) (ms1_0 ⟨0, hk⟩) (hs1_0 ⟨0, hk⟩) (ms1_1 ⟨0, hk⟩) (hs1_1 ⟨0, hk⟩) (ms1_2 ⟨0, hk⟩) (hs1_2 ⟨0, hk⟩) (ms1_3 ⟨0, hk⟩) (hs1_3 ⟨0, hk⟩) scM1_0 (Memref.isWhole_whole _) ((hcond1_0 ⟨0, hk⟩).mpr (Nat.zero_mod _)) (fun h => absurd ((hcond1_1 ⟨0, hk⟩).mp h) (show ¬(0 : ℕ) % 8 = 7 by decide)) (xblk V c ⟨0, hk⟩) (wblk V c ⟨0, hk⟩) (bblk V c ⟨0, hk⟩)) (ix2 r n)).trans ?_
    exact step (xarr V c) (warr V c) ⟨0, hk⟩ (xblk V c ⟨0, hk⟩) (wblk V c ⟨0, hk⟩) (k1_pay1 (F := Ideal)) r n _ _
      (fun q => xblk_apply V c ⟨0, hk⟩ r q) (fun q => wblk_apply V c ⟨0, hk⟩ n q) (MatmulPoint.pay1_apply _)
  | k + 1, hk, r, n => by
    have hN : k + 1 < 128 := lt_of_lt_of_eq hk N_1
    by_cases h0 : (k + 1) % 8 = 0
    · have h1 : ¬(k + 1) % 8 = 7 := by omega
      rw [outsAt1_A V c ⟨k + 1, hk⟩ h0 h1]
      dsimp only
      refine (congrFun (sout_A (F := Ideal) c (grid1.coords ⟨k + 1, hk⟩) (ms1_0 ⟨k + 1, hk⟩) (hs1_0 ⟨k + 1, hk⟩) (ms1_1 ⟨k + 1, hk⟩) (hs1_1 ⟨k + 1, hk⟩) (ms1_2 ⟨k + 1, hk⟩) (hs1_2 ⟨k + 1, hk⟩) (ms1_3 ⟨k + 1, hk⟩) (hs1_3 ⟨k + 1, hk⟩) scM1_0 (Memref.isWhole_whole _) ((hcond1_0 ⟨k + 1, hk⟩).mpr h0) (fun h => h1 ((hcond1_1 ⟨k + 1, hk⟩).mp h)) (xblk V c ⟨k + 1, hk⟩) (wblk V c ⟨k + 1, hk⟩) (bblk V c ⟨k + 1, hk⟩)) (ix2 r n)).trans ?_
      exact step (xarr V c) (warr V c) ⟨k + 1, hk⟩ (xblk V c ⟨k + 1, hk⟩) (wblk V c ⟨k + 1, hk⟩) (k1_pay1 (F := Ideal)) r n _ _
        (fun q => xblk_apply V c ⟨k + 1, hk⟩ r q) (fun q => wblk_apply V c ⟨k + 1, hk⟩ n q)
        ((MatmulPoint.pay1_apply _).trans (by show (0 : EReal) = Spec.accum _ ((k + 1) % 8); rw [h0]; rfl))
    · have hacc : (outsAt1 V c k (Nat.lt_of_succ_lt hk)).2 (ix2 r n)
          = Spec.accum (chunk (xarr V c) (warr V c)
              ⟨(k + 1) / 16 * 1024 + r.val, by have := r.isLt; omega⟩
              ⟨(k + 1) / 8 % 2 * 2048 + n.val, by have := n.isLt; omega⟩) ((k + 1) % 8) :=
        (scratch_eq c k (Nat.lt_of_succ_lt hk) r n).trans
          (accum_congr (xarr V c) (warr V c) (by show k / 16 * 1024 + r.val = (k + 1) / 16 * 1024 + r.val; omega)
            (by show k / 8 % 2 * 2048 + n.val = (k + 1) / 8 % 2 * 2048 + n.val; omega) (by omega))
      by_cases h1 : (k + 1) % 8 = 7
      · rw [outsAt1_C V c ⟨k + 1, hk⟩ h0 h1]
        dsimp only
        refine (congrFun (sout_C (F := Ideal) c (grid1.coords ⟨k + 1, hk⟩) (ms1_0 ⟨k + 1, hk⟩) (hs1_0 ⟨k + 1, hk⟩) (ms1_1 ⟨k + 1, hk⟩) (hs1_1 ⟨k + 1, hk⟩) (ms1_2 ⟨k + 1, hk⟩) (hs1_2 ⟨k + 1, hk⟩) (ms1_3 ⟨k + 1, hk⟩) (hs1_3 ⟨k + 1, hk⟩) scM1_0 (Memref.isWhole_whole _) (fun h => h0 ((hcond1_0 ⟨k + 1, hk⟩).mp h)) ((hcond1_1 ⟨k + 1, hk⟩).mpr h1) (xblk V c ⟨k + 1, hk⟩) (wblk V c ⟨k + 1, hk⟩) (bblk V c ⟨k + 1, hk⟩) (outsAt1 V c k (Nat.lt_of_succ_lt hk)).2) (ix2 r n)).trans ?_
        exact step (xarr V c) (warr V c) ⟨k + 1, hk⟩ (xblk V c ⟨k + 1, hk⟩) (wblk V c ⟨k + 1, hk⟩) (outsAt1 V c k (Nat.lt_of_succ_lt hk)).2 r n _ _
          (fun q => xblk_apply V c ⟨k + 1, hk⟩ r q) (fun q => wblk_apply V c ⟨k + 1, hk⟩ n q) hacc
      · rw [outsAt1_B V c ⟨k + 1, hk⟩ h0 h1]
        dsimp only
        refine (congrFun (sout_B (F := Ideal) c (grid1.coords ⟨k + 1, hk⟩) (ms1_0 ⟨k + 1, hk⟩) (hs1_0 ⟨k + 1, hk⟩) (ms1_1 ⟨k + 1, hk⟩) (hs1_1 ⟨k + 1, hk⟩) (ms1_2 ⟨k + 1, hk⟩) (hs1_2 ⟨k + 1, hk⟩) (ms1_3 ⟨k + 1, hk⟩) (hs1_3 ⟨k + 1, hk⟩) scM1_0 (Memref.isWhole_whole _) (fun h => h0 ((hcond1_0 ⟨k + 1, hk⟩).mp h)) (fun h => h1 ((hcond1_1 ⟨k + 1, hk⟩).mp h)) (xblk V c ⟨k + 1, hk⟩) (wblk V c ⟨k + 1, hk⟩) (bblk V c ⟨k + 1, hk⟩) (outsAt1 V c k (Nat.lt_of_succ_lt hk)).2) (ix2 r n)).trans ?_
        exact step (xarr V c) (warr V c) ⟨k + 1, hk⟩ (xblk V c ⟨k + 1, hk⟩) (wblk V c ⟨k + 1, hk⟩) (outsAt1 V c k (Nat.lt_of_succ_lt hk)).2 r n _ _
          (fun q => xblk_apply V c ⟨k + 1, hk⟩ r q) (fun q => wblk_apply V c ⟨k + 1, hk⟩ n q) hacc

/-- At a last chunk the output block holds, at row `r` and column `n`, the whole sum over the 4096 contracted
    positions plus the bias entry of the column: the linear layer at row `(t / 16)·1024 + r`, column
    `((t / 8) % 2)·2048 + n`. -/
theorem out_at_last (V : (c : Dev nD) → (b : Ref sig .tc) → Buf (Elt Ideal) ((c : Thread nD τ).loc b)) (c : Dev nD)
    (t : Fin cfg1.N) (h7 : t.val % 8 = 7) (r : Fin 1024) (n : Fin 2048) :
    (Cert.KernelIdeal.Frame.outsAt1 (F := Ideal) V c t.val t.isLt).1 (ValueIdx.ix2 r n)
      = Cert.Spec.linear2 (V c main_v1) (V c main_v2) (V c main_v3)
          (ValueIdx.ix2 ⟨t.val / 16 * 1024 + r.val, by have := MatmulPoint.pt_lt t; have := r.isLt; omega⟩
                        ⟨t.val / 8 % 2 * 2048 + n.val, by have := n.isLt; omega⟩) := by
  have hN : t.val < 128 := MatmulPoint.pt_lt t
  have h0 : ¬t.val % 8 = 0 := by omega
  have hp : t.val - 1 < cfg1.N := Nat.lt_of_le_of_lt (Nat.sub_le _ _) t.isLt
  have hacc : (outsAt1 V c (t.val - 1) hp).2 (ix2 r n)
      = Spec.accum (chunk (xarr V c) (warr V c)
          ⟨t.val / 16 * 1024 + r.val, by have := r.isLt; omega⟩
          ⟨t.val / 8 % 2 * 2048 + n.val, by have := n.isLt; omega⟩) (t.val % 8) :=
    (scratch_eq V c (t.val - 1) hp r n).trans
      (accum_congr (xarr V c) (warr V c) (by show (t.val - 1) / 16 * 1024 + r.val = t.val / 16 * 1024 + r.val; omega)
        (by show (t.val - 1) / 8 % 2 * 2048 + n.val = t.val / 8 % 2 * 2048 + n.val; omega) (by omega))
  rw [outsAt1_C V c t h0 h7]
  dsimp only
  refine (congrFun (out_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h7) (xblk V c t) (wblk V c t) (bblk V c t) (outsAt1 V c (t.val - 1) hp).2) (ix2 r n)).trans ?_
  refine (MatmulPoint.pay3_apply (k1_pay2 (F := Ideal) (xblk V c t) (wblk V c t) (outsAt1 V c (t.val - 1) hp).2) (bblk V c t) r n).trans ?_
  rw [step (xarr V c) (warr V c) t (xblk V c t) (wblk V c t) (outsAt1 V c (t.val - 1) hp).2 r n _ _
      (fun q => xblk_apply V c t r q) (fun q => wblk_apply V c t n q) hacc, bblk_apply V c t n, h7]
  exact whole (xarr V c) (warr V c) (barr V c) _ _

end Cert.KernelIdeal.MatmulValue

end
-- ==== Proof.MatmulArray.lean ====
import proofs.«155387_j72567767433792_2_alg».proof.Proof.KernelIdeal.Matmul
import proofs.«155387_j72567767433792_2_alg».proof.Proof.MatmulPoint
import proofs.«155387_j72567767433792_2_alg».proof.Proof.MatmulValue
import proofs.«155387_j72567767433792_2_alg».proof.Proof.Spec
import Idealize.ShloMosaic.Lib.Pipeline.Value
import Idealize.ShloMosaic.Lib.ValueIdx

/-! # The matmul-with-bias region: the whole output array

Each 1024 × 2048 block of the output is written back once, at the last of its eight contraction chunks, and there it
holds the masked linear layer's rows and columns of that block. The 8 × 2 blocks tile the 8192 × 4096 array: entry
(m, n) lies in the block of row-block `m / 1024` and column-block `n / 2048`, written back at the point
`(m / 1024) · 16 + (n / 2048) · 8 + 7`. So the array ends holding the layer everywhere. -/

noncomputable section

namespace Cert.KernelIdeal.MatmulArray

open Cert.KernelIdeal Cert.KernelIdeal.Gen Cert.KernelIdeal.Frame
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The output window's blocks -/

/-- The output block's index at a point, decided over the 128 points: row-block `t / 16`, column-block `(t / 8) % 2`. -/
theorem out_idx : ∀ t : Fin cfg1.N, win1_3.index t (0 : Fin 2) = t.val / 16 ∧ win1_3.index t (1 : Fin 2) = t.val / 8 % 2 :=
  (by decide +kernel : ∀ t : Fin grid1.N, win1_3.index t (0 : Fin 2) = t.val / 16 ∧ win1_3.index t (1 : Fin 2) = t.val / 8 % 2)

/-- An entry of the output array is in point `t`'s block iff each coordinate is in the block's range on its axis. -/
theorem mem_out_blk (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v4).slice (win1_3.rect t)).set ↔ _
  rw [View.set_slice_whole, Rect.mem_set_unit]
  exact Iff.rfl

/-- Every entry (m, n) of the output array lies in a block that is written back: the one of the point
    `(m / 1024) · 16 + (n / 2048) · 8 + 7`, the last chunk of row-block `m / 1024` and column-block `n / 2048`. -/
theorem out_cover (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  obtain ⟨t, ht⟩ : ∃ t : Fin cfg1.N, t.val = (i 0).val / 1024 * 16 + (i 1).val / 2048 * 8 + 7 :=
    ⟨⟨(i 0).val / 1024 * 16 + (i 1).val / 2048 * 8 + 7, lt_of_lt_of_eq (by omega) N_1.symm⟩, rfl⟩
  obtain ⟨e0, e1⟩ := out_idx t
  refine ⟨t, (flush1_3 t).mpr (by omega), ?_⟩
  rw [mem_out_blk]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 2048 ≤ (i 1).val ∧ (i 1).val < win1_3.index t (1 : Fin 2) * 2048 + 2048
    rw [e1]; omega

/-! ## What is written back, and the array -/

/-- What a point that writes back writes: its block of the masked linear layer. Such a point is the last chunk of its
    block; entry (r, n) of the block is entry (row-block · 1024 + r, column-block · 2048 + n) of the array. -/
theorem flushed_eq (c : Dev nD) (t : Fin cfg1.N) (hf : (cfg1.win 3).flush t = true) :
    (dat1 (F := Ideal) V c).flushed 3 t
      = ((cfg1.win 3).blk t).view.read (Elt Ideal) (Cert.Spec.linear2 (V c main_v1) (V c main_v2) (V c main_v3)) := by
  have h7 : t.val % 8 = 7 := (flush1_3 t).mp hf
  obtain ⟨e0, e1⟩ := out_idx t
  show (cfg1.win 3).cut (grid1.coords t) ((dat1 (F := Ideal) V c).after 3 t) = _
  rw [after1_3]
  funext j
  obtain ⟨r, n, rfl⟩ : ∃ (r : Fin 1024) (n : Fin 2048), j = ix2 r n := ⟨j 0, j 1, eq_ix2 j⟩
  show (outsAt1 (F := Ideal) V c t.val t.isLt).1 (ix2 r n)
    = Cert.Spec.linear2 (V c main_v1) (V c main_v2) (V c main_v3) (((cfg1.win 3).blk t).view.emb (ix2 r n))
  refine (MatmulValue.out_at_last V c t h7 r n).trans (congrArg (Cert.Spec.linear2 (V c main_v1) (V c main_v2) (V c main_v3)) ?_)
  refine funext fun a => Fin.ext ?_
  match a with
  | ⟨0, _⟩ => show t.val / 16 * 1024 + r.val = win1_3.index t (0 : Fin 2) * 1024 + 1 * r.val; rw [e0]; omega
  | ⟨1, _⟩ => show t.val / 8 % 2 * 2048 + n.val = win1_3.index t (1 : Fin 2) * 2048 + 1 * n.val; rw [e1]; omega

/-- The output array after the region: the masked linear layer, everywhere. -/
theorem matmul_bias (c : Dev nD) :
    (dat1 (F := Ideal) V c).arrAt 3 cfg1.N = Cert.Spec.linear2 (V c main_v1) (V c main_v2) (V c main_v3) :=
  (dat1 (F := Ideal) V c).arrAt_eq_of_cover 3 _ (fun t hf => flushed_eq V c t hf) out_cover

end Cert.KernelIdeal.MatmulArray

end
-- ==== Proof.Bridge.lean ====
/-
  The program's returned buffer is the specification of the launch arguments, over the extended reals.
  The data is flattened to rows m = b·2048 + s (rounding to a narrower format is the identity on extended
  reals); region 0 leaves weight × mask entry by entry; the bias becomes a one-row matrix; region 1 leaves
  the row form  x · (weight × mask)ᵀ + bias  of these three; the result is un-flattened. Read at (b, s, n)
  this is  (Σ_q data[b,s,q] · (weight[n,q] · mask[n,q])) + bias[n].
-/
import proofs.«155387_j72567767433792_2_alg».proof.Proof.KernelIdeal.Run
import proofs.«155387_j72567767433792_2_alg».proof.Proof.MaskMulValue
import proofs.«155387_j72567767433792_2_alg».proof.Proof.MatmulArray
import proofs.«155387_j72567767433792_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem
open Idealize.ShloMosaic.ValueIdx Cert.Spec
open Cert.KernelIdeal.MaskMulValue (entryProd masked_weight)

/-! ## The three reshapes read at an index, and their composite -/

/-- The data flattened to rows: row m reads (m / 2048, m % 2048). -/
theorem flatten_apply (x : SD.Idx → EReal) (h : SD.ShapeCasts SX) (j : SX.Idx) :
    shapeCast SX x h j
      = x (ix3 ⟨(j 0).val / 2048, by have h := idx2_lt0 j; omega⟩ ⟨(j 0).val % 2048, by omega⟩ ⟨(j 1).val, idx2_lt1 j⟩) := by
  have h0 := idx2_lt0 j
  have h1 := idx2_lt1 j
  refine shapeCast_apply x h j _ ?_
  rw [Shape.rowMajor_val_two, Shape.rowMajor_val_three]
  show (((j 0).val / 2048) * 2048 + (j 0).val % 2048) * 4096 + (j 1).val = (j 0).val * 4096 + (j 1).val
  omega

/-- The bias as a one-row matrix: column n reads n. -/
theorem biasRow_apply (b : SB.Idx → EReal) (h : SB.ShapeCasts SB2) (j : SB2.Idx) :
    shapeCast SB2 b h j = b (ix1 ⟨(j 1).val, idx2_lt1 j⟩) := by
  have h0 : (j 0).val < 1 := idx2_lt0 j
  refine shapeCast_apply b h j _ ?_
  rw [Shape.rowMajor_val_two, Shape.rowMajor_val_one]
  show (j 1).val = (j 0).val * 4096 + (j 1).val
  omega

/-- The rows un-flattened: (b, s, n) reads row b·2048 + s, column n. -/
theorem unflatten_apply (y : SX.Idx → EReal) (h : SX.ShapeCasts SD) (i : SD.Idx) :
    shapeCast SD y h i
      = y (ix2 ⟨(i 0).val * 2048 + (i 1).val, by
                  have h0 : (i 0).val < 4 := (i 0).isLt
                  have h1 : (i 1).val < 2048 := (i 1).isLt
                  omega⟩
               ⟨(i 2).val, (i 2).isLt⟩) := by
  refine shapeCast_apply y h i _ ?_
  rw [Shape.rowMajor_val_two, Shape.rowMajor_val_three]
  rfl

/-- Flatten the data, take the row form against the entrywise product with the bias as a row, un-flatten:
    the masked linear layer. -/
theorem unflatten_linear2 (x0 : SD.Idx → EReal) (x1 x2 : SW.Idx → EReal) (x3 : SB.Idx → EReal)
    (h0 : SD.ShapeCasts SX) (h1 : SB.ShapeCasts SB2) (h2 : SX.ShapeCasts SD) :
    shapeCast SD (linear2 (shapeCast SX x0 h0) (fun j => x1 j * x2 j) (shapeCast SB2 x3 h1)) h2 = linear x0 x1 x2 x3 := by
  funext i
  rw [unflatten_apply, linear_eq_linear2]
  congr 1
  · exact funext fun j => flatten_apply x0 h0 j
  · exact funext fun j => biasRow_apply x3 h1 j

/-! ## The operands of region 1 in terms of the launch arguments -/

variable (m : (ℓ : Loc nD τ sig) → Buf (Elt Ideal) ℓ)

/-- Region 1's data operand is the launch data flattened to rows (rounding changes nothing on extended reals). -/
theorem rows_eq (c : Dev nD) :
    (E3 (F := Ideal) m c main_v1 : S8192x4096.Idx → EReal)
      = shapeCast S8192x4096 (m ((c : Thread nD τ).loc main_arg0) : S4x2048x4096.Idx → EReal) shapeCasts_S4x2048x4096_S8192x4096 := by
  show W3 (F := Ideal) m c (Proc.devRef .tc main_v1) = _
  rw [W3_of m c main_v1 (by decide), W2_of_ne m c main_v1 (by decide)]
  show StableHlo.after hostOps0 (W0 m c) (Proc.devRef .tc main_v1) = _
  after_results
  rfl

/-- Region 1's weight operand is the entrywise product of the launch weight and mask. -/
theorem masked_eq (c : Dev nD) :
    (E3 (F := Ideal) m c main_v2 : S4096x4096.Idx → EReal)
      = entryProd (m ((c : Thread nD τ).loc main_arg1)) (m ((c : Thread nD τ).loc main_arg2)) := by
  show W3 (F := Ideal) m c (Proc.devRef .tc main_v2) = _
  rw [W3_of m c main_v2 (by decide)]
  refine (W2_arr m c 2).trans ?_
  rw [masked_weight (E1 m) c]
  show entryProd (W1 (F := Ideal) m c (Proc.devRef .tc main_arg1)) (W1 (F := Ideal) m c (Proc.devRef .tc main_arg2)) = _
  rw [W1_of m c main_arg1 (by decide), W1_of m c main_arg2 (by decide)]

/-- Region 1's bias operand is the launch bias as a one-row matrix. -/
theorem biasRow_eq (c : Dev nD) :
    (E3 (F := Ideal) m c main_v3 : S1x4096.Idx → EReal)
      = shapeCast S1x4096 (m ((c : Thread nD τ).loc main_arg3) : S4096.Idx → EReal) shapeCasts_S4096_S1x4096 := by
  show StableHlo.after hostOps1 (W2 (F := Ideal) m c) (Proc.devRef .tc main_v3) = _
  after_results
  rw [W2_of_ne m c main_arg3 (by decide), W1_of m c main_arg3 (by decide)]
  rfl

/-! ## The returned buffer -/

/-- Given that region 1 leaves the row form of its three operands in its output array, the returned buffer is
    the masked linear layer of the launch arguments. -/
theorem result_eq_of (c : Dev nD)
    (hrow : (dat1 (F := Ideal) (E3 m) c).arrAt 3 cfg1.N
      = Cert.Spec.linear2 (E3 (F := Ideal) m c main_v1) (E3 (F := Ideal) m c main_v2) (E3 (F := Ideal) m c main_v3)) :
    W5 (F := Ideal) m c (Proc.devRef .tc main_v5)
      = Cert.Spec.linear (m ((c.tc : Thread nD τ).loc main_arg0)) (m ((c.tc : Thread nD τ).loc main_arg1))
          (m ((c.tc : Thread nD τ).loc main_arg2)) (m ((c.tc : Thread nD τ).loc main_arg3)) := by
  show StableHlo.after hostOps2 (W4 (F := Ideal) m c) (Proc.devRef .tc main_v5) = _
  after_results
  rw [show W4 (F := Ideal) m c (Proc.devRef .tc main_v4) = _ from W4_arr m c 3, hrow, rows_eq, masked_eq, biasRow_eq]
  exact unflatten_linear2 _ _ _ _ _ _ _

/-- The returned buffer is the masked linear layer of the launch arguments. -/
theorem result_eq (m : (ℓ : Loc nD τ sig) → Buf (Elt Ideal) ℓ) (c : Dev nD) :
    Cert.KernelIdeal.Frame.W5 (F := Ideal) m c (Proc.devRef .tc main_v5)
      = Cert.Spec.linear (m ((c.tc : Thread nD τ).loc main_arg0)) (m ((c.tc : Thread nD τ).loc main_arg1))
          (m ((c.tc : Thread nD τ).loc main_arg2)) (m ((c.tc : Thread nD τ).loc main_arg3)) :=
  result_eq_of m c (Cert.KernelIdeal.MatmulArray.matmul_bias (E3 (F := Ideal) m) c)

end Cert.KernelIdeal.Bridge

end
-- ==== Proof.RefValue.lean ====
/-
  The reference program's result, read index by index, is the specification:
      out[b,s,n] = (Σ_{q<4096} data[b,s,q] · (weight[n,q] · mask[n,q])) + bias[n]
  over the extended reals. The reference multiplies weight by mask, contracts data with the product
  along the last axis of each, broadcasts the bias along the last axis, and adds.
-/
import proofs.«155387_j72567767433792_2_alg».proof.Defs
import proofs.«155387_j72567767433792_2_alg».proof.Proof.Gen.ReferenceIdeal.Run
import proofs.«155387_j72567767433792_2_alg».proof.Proof.Gen.ReferenceIdeal.Read
import proofs.«155387_j72567767433792_2_alg».proof.Proof.Spec
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Read

/-- The contraction reads data at (b, s, q). -/
theorem lidx_eq (i : S4x2048x4096.Idx) (q : Fin 4096) :
    lidx_main_v1 i q = ix3 ⟨(i 0).val, (i 0).isLt⟩ ⟨(i 1).val, (i 1).isLt⟩ q :=
  funext fun a => Fin.ext (by match a with | ⟨0, _⟩ => rfl | ⟨1, _⟩ => rfl | ⟨2, _⟩ => rfl)

/-- The contraction reads the masked weight at (n, q). -/
theorem ridx_eq (i : S4x2048x4096.Idx) (q : Fin 4096) :
    ridx_main_v1 i q = ix2 ⟨(i 2).val, (i 2).isLt⟩ q :=
  funext fun a => Fin.ext (by match a with | ⟨0, _⟩ => rfl | ⟨1, _⟩ => rfl)

/-- The two broadcasts read the bias at n. -/
theorem bidx_eq (i : S4x2048x4096.Idx) :
    idx_main_v2 (idx_main_v3 i) = ix1 ⟨(i 2).val, (i 2).isLt⟩ :=
  funext fun a => Fin.ext (by match a with | ⟨0, _⟩ => rfl)

/-- The reference's result is the masked linear layer. -/
theorem ref_eq (x0 : (⟨Cert.ReferenceIdeal.S4x2048x4096, .f32⟩ : BufTy).Contents (Elt Ideal))
    (x1 x2 : (⟨Cert.ReferenceIdeal.S4096x4096, .f32⟩ : BufTy).Contents (Elt Ideal))
    (x3 : (⟨Cert.ReferenceIdeal.S4096, .f32⟩ : BufTy).Contents (Elt Ideal)) :
    Cert.ReferenceIdeal.Read.val_main_v4 (F := Ideal) x0 x1 x2 x3 = Cert.Spec.linear x0 x1 x2 x3 := by
  funext i
  rw [val_main_v4_apply, val_main_v1_apply, val_main_v3_apply, val_main_v2_apply]
  simp only [val_main_v0_apply, lidx_eq, ridx_eq, bidx_eq, Ideal.addf_def, Ideal.mulf_def]
  rfl

end Cert.RefValue

end
-- ==== Proof.lean ====
/-
  The certificate of the masked linear layer: out = data · (weight ∘ mask)ᵀ + bias.

  The kernel program flattens the data to an [8192, 4096] matrix and rounds it, forms the masked weight in one
  elementwise region, and in a second region accumulates the product over the contracted axis in eight chunks of
  512 from a zero accumulator, adding the bias when the last chunk is in; the reference is one contraction followed
  by the bias. Over the extended reals (roundings are identities, sums are associative and commutative, zero is
  neutral) both are the same function of the arguments, entry by entry: `Cert.Spec.linear`.

  The three frames: the kernel programs' from the run of their five segments (at the word-level reading and at the
  ideal one, the same text), the reference's from its run. The idealization rewrote nothing, so `preserves` is trivial.
-/
import proofs.«155387_j72567767433792_2_alg».proof.Defs
import proofs.«155387_j72567767433792_2_alg».proof.Proof.Gen.Kernel
import proofs.«155387_j72567767433792_2_alg».proof.Proof.Gen.KernelIdeal
import proofs.«155387_j72567767433792_2_alg».proof.Proof.Gen.ReferenceIdeal
import proofs.«155387_j72567767433792_2_alg».proof.Proof.Gen.Pre_finite_inputs
import proofs.«155387_j72567767433792_2_alg».proof.Proof.Gen.ReferenceIdeal.Run
import proofs.«155387_j72567767433792_2_alg».proof.Proof.Gen.ReferenceIdeal.Read
import proofs.«155387_j72567767433792_2_alg».proof.Proof.Kernel.Run
import proofs.«155387_j72567767433792_2_alg».proof.Proof.KernelIdeal.Run
import proofs.«155387_j72567767433792_2_alg».proof.Proof.Bridge
import proofs.«155387_j72567767433792_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Frame.frame (F := Bits) m ρ

/-- So does the idealized program. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the masked linear layer of the arguments in their result buffer. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Frame.mem_uc Cert.KernelIdeal.main_v5 (by decide))).trans (Cert.KernelIdeal.Bridge.result_eq m c),
       (h c _ (Cert.KernelIdeal.Frame.mem_uc Cert.KernelIdeal.main_arg0 (by decide))).trans (Cert.KernelIdeal.Frame.W5_main_arg0 m c),
       (h c _ (Cert.KernelIdeal.Frame.mem_uc Cert.KernelIdeal.main_arg1 (by decide))).trans (Cert.KernelIdeal.Frame.W5_main_arg1 m c),
       (h c _ (Cert.KernelIdeal.Frame.mem_uc Cert.KernelIdeal.main_arg2 (by decide))).trans (Cert.KernelIdeal.Frame.W5_main_arg2 m c),
       (h c _ (Cert.KernelIdeal.Frame.mem_uc Cert.KernelIdeal.main_arg3 (by decide))).trans (Cert.KernelIdeal.Frame.W5_main_arg3 m c)⟩)
      (Cert.KernelIdeal.Frame.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
